-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x49x4096 : Shape := ⟨3, ![128, 49, 4096]⟩
abbrev S_ : Shape := ⟨0, ![]⟩

class Facts : Prop where
  bcast_S_S128x49x4096 : S_.BroadcastsInDim S128x49x4096 (![] : Fin 0 → Fin S128x49x4096.rank)
  reducesTo_S128x49x4096_S_d0_1_2 : S128x49x4096.ReducesTo [0, 1, 2] S_
  h_S_ : 0 < S_.numel

variable [Facts]

def fn {F : FTy → Type} [FloatOps F] (main_arg0 : FVec F S128x49x4096 .f32) (main_arg1 : IVec S128x49x4096 1) : IVec S_ 1 :=
  let main_v0 : FVec F S128x49x4096 .f32 := Host.absf main_arg0
  let main_cst : FVec F S_ .f32 := constant S_ .f32 0x7F800000#32
  let main_v1 : FVec F S128x49x4096 .f32 := broadcastInDim S128x49x4096 ![] bcast_S_S128x49x4096 main_cst
  let main_v2 : IVec S128x49x4096 1 := cmpf .olt main_v0 main_v1
  let main_c : IVec S_ 1 := constantI S_ 1 1#1
  let main_v3 : IVec S_ 1 := (fun x v => Host.reduce IntOp.andi x v reducesTo_S128x49x4096_S_d0_1_2 h_S_) main_v2 main_c
  main_v3
-- ==== Kernel.lean ====
abbrev S128x49x4096 : Shape := ⟨3, ![128, 49, 4096]⟩
abbrev S1x1 : Shape := ⟨2, ![1, 1]⟩
abbrev S8x49x4096 : Shape := ⟨3, ![8, 49, 4096]⟩
abbrev S8x49 : Shape := ⟨2, ![8, 49]⟩
abbrev S8x49x1 : Shape := ⟨3, ![8, 49, 1]⟩
abbrev S8x1 : Shape := ⟨2, ![8, 1]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S128x49x4096, .f32⟩
  | .hbm, ⟨1, _⟩ => ⟨S128x49x4096, .i1⟩
  | .hbm, ⟨2, _⟩ => ⟨S128x49x4096, .i32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8x49x4096, .f32⟩
  | .local _ .vmem, ⟨1, _⟩ => ⟨S8x49x4096, .f32⟩
  | .local _ .vmem, ⟨2, _⟩ => ⟨S8x49x4096, .i32⟩
  | .local _ .vmem, ⟨3, _⟩ => ⟨S8x49x4096, .i32⟩
  | .local _ .vmem, ⟨4, _⟩ => ⟨S1x1, .f32⟩
  | .local _ .vmem, ⟨5, _⟩ => ⟨S1x1, .f32⟩
  | _, _ => ⟨S128x49x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_14 : BitVec 32 := 0#32
  let v22 : BitVec 1 := Scalar.cmpi .ne v21 c0_i32_14
  v22

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x49x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x49x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  natLt_1_32 : 1 < 32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x49x4096_S8x49x4096_0_0_0 : ∀ a, (![0, 0, 0] : Fin 3 → Nat) a + S8x49x4096.size a ≤ S8x49x4096.size a
  h_S8x49x4096 : 0 < S8x49x4096.numel
  reduces_S8x49x4096_S8x49 : S8x49x4096.Reduces [2] S8x49
  shapeCasts_S8x49_S8x49x1 : S8x49.ShapeCasts S8x49x1
  reduces_S8x49x1_S8x1 : S8x49x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1x1_S1x1 : S1x1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x49x4096.size a ≤ S128x49x4096.size a
  hwx0_0 : ∀ i : grid0.Coords, EltTy.bits .f32 = 32 ∨ (Rect.block (s := S128x49x4096) S8x49x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x49x4096.size a ≤ S128x49x4096.size a
  hwx0_1 : ∀ i : grid0.Coords, EltTy.bits .i32 = 32 ∨ (Rect.block (s := S128x49x4096) S8x49x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S8x49x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x49x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x49x4096 : Shape := ⟨3, ![128, 49, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S128x49x4096, .f32⟩
  | .hbm, ⟨1, _⟩ => ⟨S128x49x4096, .i1⟩
  | .hbm, ⟨2, _⟩ => ⟨S_, .f32⟩
  | .hbm, ⟨3, _⟩ => ⟨S128x49x4096, .f32⟩
  | .hbm, ⟨4, _⟩ => ⟨S128x49x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S128x49x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩

abbrev nD : Nat := 1
abbrev τ : Topo := Topo.v7x

variable {F : FTy → Type} [FloatOps F]

class Facts₀ : Prop where
  bcast_S_S128x49x4096 : S_.BroadcastsInDim S128x49x4096 (![] : Fin 0 → Fin S128x49x4096.rank)
  reducesTo_S128x49x4096_S_d0_1_2 : S128x49x4096.ReducesTo [0, 1, 2] S_
  h_S_ : 0 < S_.numel

variable [Facts₀]

class Facts : Prop extends Facts₀ where

variable [Facts]
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.LibSum3.lean ====
/-
  A sum over a rank-3 index set is the triple sum over its coordinates (any sizes, any commutative monoid): the index
  set is the product of its three coordinate ranges, an index being determined by its coordinates.
-/
import Idealize.ShloMosaic.Lib.ValueIdx

noncomputable section

open scoped BigOperators

namespace Idealize.ShloMosaic.Sum3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, outermost axis first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.Sum3

end
-- ==== Proof.MaskedTotal.lean ====
/-
  The masked total of a [128, 49, 4096] array and its split into sixteen blocks of eight rows.

  An entry counts where its mask bit is set and is zero elsewhere; the total is the sum of all entries so counted.
  Summed one block of eight consecutive rows at a time (row 8t + r of the array is row r of block t), then over the
  sixteen blocks, it is the same extended real: addition of extended reals is commutative and associative, so no
  finiteness is asked of the entries. The loss scales the total by a factor θ and divides by the real 25165824
  = 128 · 48 · 4096; dividing by a nonzero real is multiplying by its reciprocal, so scaling before or after the
  division gives one value, again on every extended real.
-/
import Idealize.ShloMosaic.Lib.ValueIdx
import Idealize.ShloMosaic.PureOps.Ideal.Laws
import proofs.«146207_j9500467658939_1_alg».proof.Proof.LibBlockSum
import proofs.«146207_j9500467658939_1_alg».proof.Proof.LibSum3

noncomputable section

open scoped BigOperators

namespace Cert.MaskedTotal

open Idealize.ShloMosaic Idealize.ShloMosaic.ValueIdx Idealize.ShloMosaic.Sum3

/-- The whole array's shape and one block's. -/
abbrev SA : Shape := ⟨3, ![128, 49, 4096]⟩
abbrev SB : Shape := ⟨3, ![8, 49, 4096]⟩

/-- An entry as it is counted: itself where the mask bit is set, zero elsewhere. -/
def cell (x : SA.Idx → EReal) (v : SA.Idx → BitVec 1) (j : SA.Idx) : EReal :=
  Scalar.select (v j) (x j) 0

/-- The masked total: the sum of every counted entry. -/
def total (x : SA.Idx → EReal) (v : SA.Idx → BitVec 1) : EReal := ∑ j, cell x v j

/-- Row `r` of block `t` is row `8t + r` of the array. -/
def rowOf (t : Fin 16) (r : Fin 8) : Fin 128 := ⟨8 * t.val + r.val, by omega⟩

/-- The masked total of block `t`: rows `8t … 8t + 7`, every column pair. -/
def blockTotal (x : SA.Idx → EReal) (v : SA.Idx → BitVec 1) (t : Fin 16) : EReal :=
  ∑ r : Fin 8, ∑ b : Fin 49, ∑ c : Fin 4096, cell x v (ix3 (rowOf t r) b c)

/-- The total is the sum of the sixteen block totals. -/
theorem total_eq_blocks (x : SA.Idx → EReal) (v : SA.Idx → BitVec 1) :
    total x v = ∑ t : Fin 16, blockTotal x v t := by
  unfold total blockTotal
  rw [sum_idx3]
  exact (Cert.BlockSum.sum_blocks 16 8 (fun n : Fin 128 => ∑ b : Fin 49, ∑ c : Fin 4096, cell x v (ix3 n b c))).symm

/-- A mask bit widened to a 32-bit word is nonzero exactly where the bit is set. -/
theorem widened_ne_zero (b : BitVec 1) : IntOp.cmpi .ne (b.setWidth 32) 0#32 = b := by
  revert b; decide

/-- The divisor's pattern denotes the real 25165824 = 128 · 48 · 4096. -/
theorem ofBits_divisor : Ideal.ofBits .f32 0x4BC00000#32 = ((25165824 : ℝ) : EReal) := by
  simp [Ideal.ofBits, Ideal.ieee, -EReal.coe_mul]; norm_num

/-- Scaling by `θ` before dividing by the divisor, or after, is one value on every extended real. -/
theorem scale_div (θ T : EReal) :
    Ideal.div (θ * T) (Ideal.ofBits .f32 0x4BC00000#32) = θ * Ideal.div T (Ideal.ofBits .f32 0x4BC00000#32) := by
  rw [ofBits_divisor, Ideal.div_coe (by norm_num : (25165824 : ℝ) ≠ 0), Ideal.div_coe (by norm_num : (25165824 : ℝ) ≠ 0),
    mul_assoc]

/-- The loss: the masked total divided by 25165824 and scaled by θ (the factor's pattern is left as a word: the two
    programs spell the same one). -/
def loss (x : SA.Idx → EReal) (v : SA.Idx → BitVec 1) : EReal :=
  Ideal.ofBits .f32 0x38D1B717#32 * Ideal.div (total x v) (Ideal.ofBits .f32 0x4BC00000#32)

end Cert.MaskedTotal

end
-- ==== Proof.RefValue.lean ====
/-
  The reference's result is the loss: it selects each entry or zero by its mask bit, sums every selected entry from
  zero, divides the sum by 25165824 and scales the quotient by θ.
-/
import proofs.«146207_j9500467658939_1_alg».proof.Proof.Gen.ReferenceIdeal.Run
import proofs.«146207_j9500467658939_1_alg».proof.Proof.Gen.ReferenceIdeal.Read
import proofs.«146207_j9500467658939_1_alg».proof.Proof.MaskedTotal

noncomputable section

open scoped BigOperators

namespace Cert.ReferenceIdeal.RefValue

open Cert.ReferenceIdeal Cert.ReferenceIdeal.Gen Cert.ReferenceIdeal.Read
open Idealize.ShloMosaic Idealize.ShloMosaic.ValueIdx Cert.MaskedTotal

/-- The reference's last stage, at its one index, is the loss of the two argument arrays: the sum from zero of the
    selected entries is the masked total. -/
theorem result_eq (x : S128x49x4096.Idx → EReal) (v : S128x49x4096.Idx → BitVec 1) :
    val_main_v3 (F := Ideal) x v = fun _ => loss x v := by
  funext i
  rw [val_main_v3_apply, val_main_v2_apply, val_main_v1_apply]
  simp only [val_main_cst_2_apply, val_main_cst_1_apply, val_main_cst_0_apply, val_main_v0_apply,
    val_main_call0_v0_apply, val_main_cst_apply, Ideal.ofBits_def, Ideal.mulf_def, Ideal.hostDivf_def,
    Ideal.ofBits_zero_f32, zero_add]
  rfl

end Cert.ReferenceIdeal.RefValue

end
-- ==== Proof.LibTrailingUnit.lean ====
/-
  Shape casts that add or drop a TRAILING unit axis, read at an index (any sizes, any element type): an `[a, b]` array
  viewed `[a, b, 1]` and back, and an `[a]` array viewed `[a, 1]` and back. Row-major positions agree because the unit
  axis contributes a factor one and a coordinate zero.
-/
import Idealize.ShloMosaic.Lib.ValueIdx
import Idealize.ShloMosaic.Lib.Pipeline.Value

namespace Idealize.ShloMosaic.TrailingUnit

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An index of `[a, b, 1]` by its coordinates: the last is zero. -/
theorem eq_ix3_unit {a b : ℕ} (j : (⟨3, ![a, b, 1]⟩ : Shape).Idx) : j = ix3 (j 0) (j 1) (0 : Fin 1) := by
  funext d
  match d with
  | ⟨0, _⟩ => rfl
  | ⟨1, _⟩ => rfl
  | ⟨2, hd⟩ =>
    have h : (j ⟨2, hd⟩).val < 1 := (j ⟨2, hd⟩).isLt
    exact Fin.ext (show (j ⟨2, hd⟩).val = 0 by omega)

/-- An index of `[a, 1]` by its coordinates: the last is zero. -/
theorem eq_ix2_unit {a : ℕ} (j : (⟨2, ![a, 1]⟩ : Shape).Idx) : j = ix2 (j 0) (0 : Fin 1) := by
  funext d
  match d with
  | ⟨0, _⟩ => rfl
  | ⟨1, hd⟩ =>
    have h : (j ⟨1, hd⟩).val < 1 := (j ⟨1, hd⟩).isLt
    exact Fin.ext (show (j ⟨1, hd⟩).val = 0 by omega)

end Idealize.ShloMosaic.TrailingUnit
-- ==== Proof.BodyValue.lean ====
/-
  What the kernel's body leaves, case by case, and its arithmetic at the ideal instance.

  The body keeps a one-entry scratch across the grid. At every point it loads the point's block of the array and of
  the widened mask, selects each entry or zero by whether its mask word is nonzero, sums the selection over the last
  axis, then the middle axis, then the leading axis (each sum keeping its axis as a unit axis), adds the result to the
  scratch and stores it back. At the first point it first resets the scratch to zero; at the last point it then
  copies the scratch to the output block. So each case's scratch (and, at the last point, the output block) is the
  update payload of the point's two blocks and of what the scratch held — the reset at the first point —, and at the
  ideal instance that payload is the old scratch plus the block's selected entries summed coordinate by coordinate.
-/
import proofs.«146207_j9500467658939_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws
import proofs.«146207_j9500467658939_1_alg».proof.Proof.LibTrailingUnit
import proofs.«146207_j9500467658939_1_alg».proof.Proof.MaskedTotal

noncomputable section

open scoped BigOperators
open Idealize.ShloMosaic Idealize.ShloMosaic.TcCoe Idealize.SL.Sem Idealize.ShloMosaic.Tactic
open Idealize.ShloMosaic.ValueIdx Idealize.ShloMosaic.TrailingUnit
open Idealize.ShloMosaic.Pipeline (Dat)

namespace Cert.KernelIdeal.Body

open Cert.KernelIdeal Cert.KernelIdeal.Gen

/-! ## The cases' pieces, at any float instance -/

section Pieces

variable {F : FTy → Type} [FloatOps F]

/-- The loads and stores go through zero offsets. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Past the first point, and before the last: the body leaves in the carried scratch the update of what it held. -/
theorem scratch_B (c : Dev nD) (i : grid0.Coords) (a1 : Memref sig .tc .vmem S8x49x4096 .f32) (h1 : a1.IsWhole)
    (a2 : Memref sig .tc .vmem S8x49x4096 .i32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S8x49x4096 .f32) (x1 : Vec F S8x49x4096 .i32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz2]
  simp only [View.readAt_eq_ld, h1.read_unread, h2.read_unread, h4.read_unread, View.ld_unit_zero (S := S8x49x4096) hz3,
    View.ld_unit_zero (S := S1x1) hz2]

/-- At the last point the scratch is updated the same way … -/
theorem scratch_C (c : Dev nD) (i : grid0.Coords) (a1 : Memref sig .tc .vmem S8x49x4096 .f32) (h1 : a1.IsWhole)
    (a2 : Memref sig .tc .vmem S8x49x4096 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S8x49x4096 .f32) (x1 : Vec F S8x49x4096 .i32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz2]
  simp only [View.readAt_eq_ld, h1.read_unread, h2.read_unread, h4.read_unread, View.ld_unit_zero (S := S8x49x4096) hz3,
    View.ld_unit_zero (S := S1x1) hz2]

/-- … and the output block receives the scratch as just updated: the load that feeds the output's store reads the
    update back. -/
theorem out_C (c : Dev nD) (i : grid0.Coords) (a1 : Memref sig .tc .vmem S8x49x4096 .f32) (h1 : a1.IsWhole)
    (a2 : Memref sig .tc .vmem S8x49x4096 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S8x49x4096 .f32) (x1 : Vec F S8x49x4096 .i32) (xs0 : Vec F S1x1 .f32) :
    out0_C_2 c i a1 h1 a2 h2 a3 h3 a4 h4 hc0 hc1 x0 x1 xs0 = k0_pay2 x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz2]
  simp only [View.readCov_unit_zero (S := S1x1) _ hz2, View.readAt_eq_ld, h1.read_unread, h2.read_unread, h4.read_unread,
    View.ld_unit_zero (S := S8x49x4096) hz3, View.ld_unit_zero (S := S1x1) hz2]

/-- At the first point the body first resets the scratch, reads the reset back, and leaves the update of the reset. -/
theorem scratch_A (c : Dev nD) (i : grid0.Coords) (a1 : Memref sig .tc .vmem S8x49x4096 .f32) (h1 : a1.IsWhole)
    (a2 : Memref sig .tc .vmem S8x49x4096 .i32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S8x49x4096 .f32) (x1 : Vec F S8x49x4096 .i32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz2]
  simp only [View.readCov_unit_zero (S := S1x1) _ hz2, View.readAt_eq_ld, h1.read_unread, h2.read_unread,
    View.ld_unit_zero (S := S8x49x4096) hz3]

end Pieces

/-! ## The payloads at the ideal instance -/

/-- A lane sum over one axis of a float array, from the zero word, is the sum over that axis's coordinates. -/
theorem sum_axis {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src _ h hφ hacc j

/-- The index a reduction over the last axis of a block reads: the kept coordinates with the summed one appended. -/
theorem lift2 (r : Fin 8) (b : Fin 49) (c : Fin 4096) :
    reduces_S8x49x4096_S8x49.lift (ix2 r b) c = ix3 r b c := by
  funext a; match a with | ⟨0, _⟩ => rfl | ⟨1, _⟩ => rfl | ⟨2, _⟩ => rfl

/-- Over the middle axis of the kept-dimension column. -/
theorem lift1 (r : Fin 8) (b : Fin 49) :
    reduces_S8x49x1_S8x1.lift (ix2 r (0 : Fin 1)) b = ix3 r b (0 : Fin 1) := by
  funext a; match a with | ⟨0, _⟩ => rfl | ⟨1, _⟩ => rfl | ⟨2, _⟩ => rfl

/-- Over the leading axis. -/
theorem lift0 (r : Fin 8) :
    reduces_S8x1x1_S1x1.lift (ix2 (0 : Fin 1) (0 : Fin 1)) r = ix3 r (0 : Fin 1) (0 : Fin 1) := by
  funext a; match a with | ⟨0, _⟩ => rfl | ⟨1, _⟩ => rfl | ⟨2, _⟩ => rfl

/-- The sum over the last axis of a block, at row `r` and column `b`. -/
theorem sum_last (src : S8x49x4096.Idx → EReal) (hφ : FKind.Formats .f32)
    (hacc : (0x00000000#32 : BitVec 32) = 0x00000000#32) (r : Fin 8) (b : Fin 49) :
    multiReduction (F := Ideal) .add [2] S8x49 src 0x00000000#32 reduces_S8x49x4096_S8x49 hφ hacc (ix2 r b)
      = ∑ c : Fin 4096, src (ix3 r b c) :=
  (sum_axis src reduces_S8x49x4096_S8x49 hφ hacc (ix2 r b)).trans
    (Finset.sum_congr rfl fun c _ => congrArg src (lift2 r b c))

/-- The sum over the middle axis of a kept-dimension array, at row `r`. -/
theorem sum_middle (src : S8x49x1.Idx → EReal) (hφ : FKind.Formats .f32)
    (hacc : (0x00000000#32 : BitVec 32) = 0x00000000#32) (r : Fin 8) :
    multiReduction (F := Ideal) .add [1] S8x1 src 0x00000000#32 reduces_S8x49x1_S8x1 hφ hacc (ix2 r (0 : Fin 1))
      = ∑ b : Fin 49, src (ix3 r b (0 : Fin 1)) :=
  (sum_axis src reduces_S8x49x1_S8x1 hφ hacc (ix2 r (0 : Fin 1))).trans
    (Finset.sum_congr rfl fun b _ => congrArg src (lift1 r b))

/-- The sum over the leading axis of a kept-dimension column. -/
theorem sum_leading (src : S8x1x1.Idx → EReal) (hφ : FKind.Formats .f32)
    (hacc : (0x00000000#32 : BitVec 32) = 0x00000000#32) :
    multiReduction (F := Ideal) .add [0] S1x1 src 0x00000000#32 reduces_S8x1x1_S1x1 hφ hacc
        (ix2 (0 : Fin 1) (0 : Fin 1))
      = ∑ r : Fin 8, src (ix3 r (0 : Fin 1) (0 : Fin 1)) :=
  (sum_axis src reduces_S8x1x1_S1x1 hφ hacc (ix2 (0 : Fin 1) (0 : Fin 1))).trans
    (Finset.sum_congr rfl fun r _ => congrArg src (lift0 r))

/-- The body's three lane sums — over the last axis, then the middle one, then the leading one, each keeping its
    axis as a unit axis — leave, at the one index of the result, the sum of the block over all its indices,
    coordinate by coordinate. -/
theorem nested_sums (g : S8x49x4096.Idx → EReal) (hφ : FKind.Formats .f32)
    (hacc : (0x00000000#32 : BitVec 32) = 0x00000000#32) :
    shapeCast S1x1 (shapeCast S1x1x1 (multiReduction .add [0] S1x1 (shapeCast S8x1x1 (multiReduction .add [1] S8x1
      (shapeCast S8x49x1 (multiReduction (F := Ideal) .add [2] S8x49 g 0x00000000#32 reduces_S8x49x4096_S8x49 hφ hacc)
        shapeCasts_S8x49_S8x49x1) 0x00000000#32 reduces_S8x49x1_S8x1 hφ hacc) shapeCasts_S8x1_S8x1x1)
      0x00000000#32 reduces_S8x1x1_S1x1 hφ hacc) shapeCasts_S1x1_S1x1x1) shapeCasts_S1x1x1_S1x1
      (ix2 (0 : Fin 1) (0 : Fin 1))
      = ∑ r : Fin 8, ∑ b : Fin 49, ∑ c : Fin 4096, g (ix3 r b c) := by
  refine (shapeCast_ab1_ab_apply _ _ (0 : Fin 1) (0 : Fin 1)).trans ?_
  refine (shapeCast_ab_ab1_apply _ _ (0 : Fin 1) (0 : Fin 1) (0 : Fin 1)).trans ?_
  refine (sum_leading _ hφ hacc).trans (Finset.sum_congr rfl fun r _ => ?_)
  refine (shapeCast_ab_ab1_apply _ _ r (0 : Fin 1) (0 : Fin 1)).trans ?_
  refine (sum_middle _ hφ hacc r).trans (Finset.sum_congr rfl fun b _ => ?_)
  refine (shapeCast_ab_ab1_apply _ _ r b (0 : Fin 1)).trans ?_
  exact sum_last g hφ hacc r b

/-- The reset writes zero. -/
theorem pay1_apply (y : S1x1.Idx) : k0_pay1 (F := Ideal) y = 0 := by
  unfold k0_pay1
  rw [shapeCast_self]
  exact Ideal.ofBits_zero_f32

/-- The update, at the scratch's one index: what the scratch held plus the block's entries summed where the block's
    mask word is nonzero. -/
theorem pay2_apply (x0 : S8x49x4096.Idx → EReal) (x1 : S8x49x4096.Idx → BitVec 32) (xs : S1x1.Idx → EReal) :
    k0_pay2 (F := Ideal) x0 x1 xs (ix2 (0 : Fin 1) (0 : Fin 1))
      = xs (ix2 (0 : Fin 1) (0 : Fin 1))
        + ∑ r : Fin 8, ∑ b : Fin 49, ∑ c : Fin 4096,
            Scalar.select (IntOp.cmpi .ne (x1 (ix3 r b c)) 0#32) (x0 (ix3 r b c)) 0 := by
  unfold k0_pay2
  rw [shapeCast_self, addf_apply]
  congr 1
  refine (nested_sums _ _ _).trans ?_
  refine Finset.sum_congr rfl fun r _ => Finset.sum_congr rfl fun b _ => Finset.sum_congr rfl fun c _ => ?_
  show Scalar.select _ _ (Ideal.ofBits .f32 0x00000000#32) = _
  rw [Ideal.ofBits_zero_f32]
  rfl

end Cert.KernelIdeal.Body

end
-- ==== Proof.KernelValue.lean ====
/-
  The kernel's run, read as a value: the result array and the loss.

  The grid has sixteen points; point t stages block t of the array (rows 8t … 8t + 7, every column pair) and the same
  block of the mask, which one host operation before the region has widened to 32-bit words. The one-entry scratch is
  reset at the first point and updated at every point, so after point n it holds the update chain of blocks 0 … n;
  the output block is stored at the last point only, from the scratch as that point leaves it, and written back once:
  the [1, 1] result array ends at the scratch after point 15. Five host operations after the region read that entry as
  a scalar, scale it by θ and divide by 25165824. At the ideal instance each update adds its block's masked total, the
  sixteen block totals add up to the masked total of the whole array, and the result is the loss.
-/
import proofs.«146207_j9500467658939_1_alg».proof.Proof.BodyValue
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Sum

open Cert.KernelIdeal Cert.KernelIdeal.Gen Cert.KernelIdeal.Body Cert.MaskedTotal

section AnyInstance

variable {F : FTy → Type} [FloatOps F]
variable (m : (ℓ : Loc nD τ sig) → Buf (Elt F) ℓ) (ρ : Dev nD → PrngReg)

/-! ## The scratch after each point -/

/-- The scratch after point `n`: the update, by point `n`'s two blocks, of the reset (at the first point) or of what
    the point before left. -/
def acc (c : Dev nD) : (n : ℕ) → n < cfg0.N → Vec F S1x1 .f32
  | 0, h => k0_pay2 (iblk m c 0 ⟨0, h⟩) (iblk m c 1 ⟨0, h⟩) (k0_pay1 (F := F))
  | n + 1, h => k0_pay2 (iblk m c 0 ⟨n + 1, h⟩) (iblk m c 1 ⟨n + 1, h⟩) (acc c n (Nat.lt_of_succ_lt h))

/-- What the frame's recursion over the points leaves in the carried scratch is that: the first point resets and
    updates, every later point — the last one too — updates what the point before left. -/
theorem scratch_eq (c : Dev nD) : ∀ (n : ℕ) (h : n < cfg0.N), (outsAt0 m c n h).2 = acc m c n h
  | 0, h => by
    rw [outsAt0_A m c ⟨0, h⟩ rfl (by dsimp only; omega)]
    dsimp only
    exact scratch_A c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) scM0_0 (Memref.isWhole_whole _) _ _ (iblk m c 0 ⟨0, h⟩) (iblk m c 1 ⟨0, h⟩)
  | n + 1, h => by
    have hN : cfg0.N = 16 := N_0
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      refine (scratch_C c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _
        (iblk m c 0 ⟨n + 1, h⟩) (iblk m c 1 ⟨n + 1, h⟩) _).trans ?_
      show k0_pay2 _ _ (outsAt0 m c n _).2 = k0_pay2 _ _ (acc m c n _)
      rw [scratch_eq c n]
    · rw [outsAt0_B m c ⟨n + 1, h⟩ h0 h1]
      dsimp only
      refine (scratch_B c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _
        (iblk m c 0 ⟨n + 1, h⟩) (iblk m c 1 ⟨n + 1, h⟩) _).trans ?_
      show k0_pay2 _ _ (outsAt0 m c n _).2 = k0_pay2 _ _ (acc m c n _)
      rw [scratch_eq c n]

/-- At the last point the output block receives the scratch as that point leaves it. -/
theorem out_eq (c : Dev nD) (n : ℕ) (h : n + 1 < cfg0.N) (h1 : (n + 1) % 16 = 15) :
    (outsAt0 m c (n + 1) h).1 = acc m c (n + 1) h := by
  have hN : cfg0.N = 16 := N_0
  have h0 : ¬(⟨n + 1, h⟩ : Fin cfg0.N).val % 16 = 0 := by dsimp only; omega
  rw [outsAt0_C m c ⟨n + 1, h⟩ h0 h1]
  dsimp only
  refine (out_C c (grid0.coords ⟨n + 1, h⟩) (ms0_0 ⟨n + 1, h⟩) (hs0_0 ⟨n + 1, h⟩) (ms0_1 ⟨n + 1, h⟩)
    (hs0_1 ⟨n + 1, h⟩) (ms0_2 ⟨n + 1, h⟩) (hs0_2 ⟨n + 1, h⟩) scM0_0 (Memref.isWhole_whole _) _ _
    (iblk m c 0 ⟨n + 1, h⟩) (iblk m c 1 ⟨n + 1, h⟩) _).trans ?_
  show k0_pay2 _ _ (outsAt0 m c n _).2 = k0_pay2 _ _ (acc m c n _)
  rw [scratch_eq m c n]

/-! ## The blocks the windows read -/

/-- Decided over the grid: at point `t` the array's and the mask's windows read block `(t, 0, 0)`, and the output's
    window stays on block `(0, 0)`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 ∧ win0_2.index t (0 : Fin 2) = 0 ∧ win0_2.index t (1 : Fin 2) = 0 :=
  (by decide +kernel : ∀ t : Fin grid0.N, _)

/-- A grid point as one of the sixteen blocks of rows. -/
def blockOf (t : Fin cfg0.N) : Fin 16 := ⟨t.val, lt_of_lt_of_eq t.isLt N_0⟩

/-- The array's block at point `t` reads, at row `r`, row `8t + r` of the array as launched: no host operation
    before the region writes it. -/
theorem block_arr (c : Dev nD) (t : Fin cfg0.N) (r : Fin 8) (b : Fin 49) (k : Fin 4096) :
    (iblk m c 0 t : Vec F S8x49x4096 .f32) (ix3 r b k)
      = m ((c : Thread nD τ).loc main_arg0) (ix3 (rowOf (blockOf t) r) b k) := by
  obtain ⟨e0, e1, e2, -⟩ := idx_facts t
  unfold iblk
  rw [View.read_apply]
  show V m c main_arg0 _ = _
  rw [V_main_arg0 m c]
  congr 1
  funext a
  apply Fin.ext
  match a with
  | ⟨0, _⟩ => show win0_0.index t (0 : Fin 3) * 8 + 1 * r.val = 8 * t.val + r.val; omega
  | ⟨1, _⟩ => show win0_0.index t (1 : Fin 3) * 49 + 1 * b.val = b.val; omega
  | ⟨2, _⟩ => show win0_0.index t (2 : Fin 3) * 4096 + 1 * k.val = k.val; omega

/-- The one host operation before the region widens the mask to 32-bit words. -/
theorem widened_mask (c : Dev nD) :
    (V m c main_v0 : S128x49x4096.Idx → BitVec 32) = extui 32 (m ((c : Thread nD τ).loc main_arg1)) natLt_1_32 := by
  show StableHlo.after hostOps0 (fun b => m (c, b)) (Proc.devRef .tc main_v0) = _
  after_results

/-- The mask's block at point `t` reads the widened mask bit of row `8t + r`. -/
theorem block_mask (c : Dev nD) (t : Fin cfg0.N) (r : Fin 8) (b : Fin 49) (k : Fin 4096) :
    (iblk m c 1 t : Vec F S8x49x4096 .i32) (ix3 r b k)
      = (m ((c : Thread nD τ).loc main_arg1) (ix3 (rowOf (blockOf t) r) b k)).setWidth 32 := by
  obtain ⟨-, -, -, e0, e1, e2, -⟩ := idx_facts t
  unfold iblk
  rw [View.read_apply]
  show V m c main_v0 _ = _
  rw [widened_mask m c]
  show (m ((c : Thread nD τ).loc main_arg1) _).setWidth 32 = _
  congr 2
  funext a
  apply Fin.ext
  match a with
  | ⟨0, _⟩ => show win0_1.index t (0 : Fin 3) * 8 + 1 * r.val = 8 * t.val + r.val; omega
  | ⟨1, _⟩ => show win0_1.index t (1 : Fin 3) * 49 + 1 * b.val = b.val; omega
  | ⟨2, _⟩ => show win0_1.index t (2 : Fin 3) * 4096 + 1 * k.val = k.val; omega

/-! ## The result array -/

/-- What the result array ends holding: the scratch after the last point. -/
abbrev final (c : Dev nD) : Buf (Elt F) ((c : Thread nD τ).loc main_v1) :=
  acc m c 15 (by rw [show cfg0.N = 16 from N_0]; decide)

/-- The one write-back, after the last point, writes it: the output's one block is the whole [1, 1] array. -/
theorem flushed_eq (c : Dev nD) (t : Fin cfg0.N) (hf : (cfg0.win 2).flush t = true) :
    (dats m 0 c).flushed 2 t = ((cfg0.win 2).blk t).view.read (Elt F) (final m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2]
  have e : (outsAt0 m c t0_15.val t0_15.isLt).1 = final m c := out_eq m c 14 _ rfl
  rw [e]
  have hz' : (fun a => win0_2.index t0_15 a * main_v1.ty.shape.size a) = fun _ => 0 :=
    funext fun a => by fin_cases a <;> decide
  exact (Memref.read_access_unit_zero (Elt F) main_v1 hz' (fun a => by rw [congrFun hz' a]; simp) (final m c)).symm

/-- Both indices of the [1, 1] array lie in that block. -/
theorem covered (i : S1x1.Idx) : i ∈ ((cfg0.win 2).blk t0_15).view.set := by
  obtain ⟨-, -, -, -, -, -, e0, e1⟩ := idx_facts t0_15
  show i ∈ ((View.whole main_v1).slice (win0_2.rect t0_15)).set
  rw [View.set_slice_whole, Rect.mem_set_unit]
  intro a
  have h0 : (i 0).val < 1 := (i 0).isLt
  have h1 : (i 1).val < 1 := (i 1).isLt
  match a with
  | ⟨0, _⟩ => show win0_2.index t0_15 (0 : Fin 2) * 1 ≤ (i 0).val ∧ (i 0).val < win0_2.index t0_15 (0 : Fin 2) * 1 + 1; omega
  | ⟨1, _⟩ => show win0_2.index t0_15 (1 : Fin 2) * 1 ≤ (i 1).val ∧ (i 1).val < win0_2.index t0_15 (1 : Fin 2) * 1 + 1; omega

/-- So the result array ends at the scratch after the last point. -/
theorem final_eq (c : Dev nD) : (dats m 0 c).arrAt 2 cfg0.N = final m c :=
  (dats m 0 c).arrAt_eq_of_cover 2 (final m c) (flushed_eq m c) fun i =>
    ⟨t0_15, (flush0_2 t0_15).mpr rfl, covered i⟩

/-! ## The host operations after the region, and the run -/

/-- The loss the program returns, from the result array: the [1, 1] array read as a scalar, scaled by θ, divided by
    the divisor. -/
def lossOf (y : Vec F S1x1 .f32) : FVec F S_ .f32 :=
  Host.divf (mulf (constant (F := F) S_ .f32 0x38D1B717#32) (shapeCast S_ y shapeCasts_S1x1_S_))
    (constant (F := F) S_ .f32 0x4BC00000#32)

/-- The five host operations after the region compute that of the result array. -/
theorem tail_eq (c : Dev nD) :
    Pipeline.afterTail₀ cfgs (dats m) 0 (V0 m) [hostOps1] c main_v4 = lossOf (final m c) := by
  unfold Pipeline.afterTail₀
  show StableHlo.after hostOps1 _ (Proc.devRef .tc main_v4) = _
  after_results
  unfold lossOf
  rw [(Pipeline.withArrays_arr spec0 launch0.win.arr_inj c _ _ 2).trans (final_eq m c)]
  rfl

/-- The run, read: the result at the loss of the scratch after the last point, the arguments unchanged. -/
theorem run : θ_run defs (onTc (τ := τ) (main (F := F))) ⟨m, fun _ => 0, ρ⟩ fun r => ∀ c : Dev nD,
      r.2.mem ((c : Thread nD τ).loc main_v4) = lossOf (final m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end AnyInstance

/-! ## At the ideal instance: the scratch is the running masked total, and the result is the loss -/

section AtIdeal

variable (m : (ℓ : Loc nD τ sig) → Buf (Elt Ideal) ℓ)

/-- The two argument arrays as launched, as plain functions of an index. -/
abbrev arr (c : Dev nD) : SA.Idx → EReal := m ((c : Thread nD τ).loc main_arg0)
abbrev msk (c : Dev nD) : SA.Idx → BitVec 1 := m ((c : Thread nD τ).loc main_arg1)

/-- An entry selected by a widened mask word is the entry selected by the mask bit. -/
theorem select_widened (x x' : EReal) (w : BitVec 32) (b : BitVec 1) (hx : x = x') (hw : w = b.setWidth 32) :
    Scalar.select (IntOp.cmpi .ne w 0#32) x (0 : EReal) = Scalar.select b x' 0 := by
  subst hx hw
  rw [widened_ne_zero]

/-- One point's update adds that point's block total: the block's rows are rows `8t … 8t + 7` of the array, and a
    widened mask bit is nonzero exactly where the bit is set. -/
theorem update_apply (c : Dev nD) (t : Fin cfg0.N) (xs : S1x1.Idx → EReal) :
    k0_pay2 (F := Ideal) (iblk m c 0 t) (iblk m c 1 t) xs (ix2 (0 : Fin 1) (0 : Fin 1))
      = xs (ix2 (0 : Fin 1) (0 : Fin 1)) + blockTotal (arr m c) (msk m c) (blockOf t) := by
  refine (pay2_apply (iblk m c 0 t) (iblk m c 1 t) xs).trans
    (congrArg (fun z => xs (ix2 (0 : Fin 1) (0 : Fin 1)) + z) ?_)
  unfold blockTotal
  refine Finset.sum_congr rfl fun r _ => Finset.sum_congr rfl fun b _ => Finset.sum_congr rfl fun k _ => ?_
  exact select_widened _ _ _ _ (block_arr m c t r b k) (block_mask m c t r b k)

/-- The block totals listed by natural number (zero past the sixteenth). -/
def partTotal (c : Dev nD) (n : ℕ) : EReal :=
  if h : n < 16 then blockTotal (arr m c) (msk m c) ⟨n, h⟩ else 0

/-- The scratch after point `n` holds the sum of the block totals of points `0 … n`. -/
theorem acc_apply (c : Dev nD) : ∀ (n : ℕ) (h : n < cfg0.N),
    acc (F := Ideal) m c n h (ix2 (0 : Fin 1) (0 : Fin 1)) = ∑ i ∈ Finset.range (n + 1), partTotal m c i
  | 0, h => by
    show k0_pay2 (F := Ideal) (iblk m c 0 ⟨0, h⟩) (iblk m c 1 ⟨0, h⟩) (k0_pay1 (F := Ideal)) _ = _
    rw [update_apply m c ⟨0, h⟩, pay1_apply, zero_add, Finset.sum_range_one]
    unfold partTotal
    rw [dif_pos (show 0 < 16 by omega)]
    rfl
  | n + 1, h => by
    have hN : cfg0.N = 16 := N_0
    show k0_pay2 (F := Ideal) (iblk m c 0 ⟨n + 1, h⟩) (iblk m c 1 ⟨n + 1, h⟩) (acc m c n _) _ = _
    rw [update_apply m c ⟨n + 1, h⟩, acc_apply c n, Finset.sum_range_succ _ (n + 1)]
    congr 1
    unfold partTotal
    rw [dif_pos (show n + 1 < 16 by omega)]
    rfl

/-- After the last point it holds the masked total of the whole array. -/
theorem final_total (c : Dev nD) :
    final (F := Ideal) m c (ix2 (0 : Fin 1) (0 : Fin 1)) = total (arr m c) (msk m c) := by
  show acc (F := Ideal) m c 15 _ _ = _
  rw [acc_apply m c 15, total_eq_blocks]
  show ∑ i ∈ Finset.range 16, partTotal m c i = _
  rw [Finset.sum_range]
  refine Finset.sum_congr rfl fun t _ => ?_
  unfold partTotal
  rw [dif_pos t.isLt]

/-- The host operations after the region, at the ideal instance: the array's one entry scaled, then divided. -/
theorem lossOf_apply (y : S1x1.Idx → EReal) (i : S_.Idx) :
    lossOf (F := Ideal) y i
      = Ideal.div (Ideal.ofBits .f32 0x38D1B717#32 * y (ix2 (0 : Fin 1) (0 : Fin 1)))
          (Ideal.ofBits .f32 0x4BC00000#32) := by
  unfold lossOf
  show Ideal.div (Ideal.ofBits .f32 0x38D1B717#32 * shapeCast S_ y shapeCasts_S1x1_S_ i)
    (Ideal.ofBits .f32 0x4BC00000#32) = _
  rw [shapeCast_apply y shapeCasts_S1x1_S_ i (ix2 (0 : Fin 1) (0 : Fin 1)) (by
    have h1 := (S1x1.rowMajor (ix2 (0 : Fin 1) (0 : Fin 1))).isLt
    have h2 := (S_.rowMajor i).isLt
    have e1 : S1x1.numel = 1 := by decide
    have e2 : S_.numel = 1 := by decide
    omega)]

/-- The kernel's result is the loss of the two argument arrays: the scratch ends at the masked total, and scaling
    before the division is scaling after it. -/
theorem result_eq (c : Dev nD) : lossOf (F := Ideal) (final m c) = fun _ => loss (arr m c) (msk m c) := by
  funext i
  rw [lossOf_apply, final_total, scale_div]
  rfl

end AtIdeal

end Cert.KernelIdeal.Sum

end
-- ==== Proof.lean ====
/-
  The certificate of the masked-sum loss kernel against its reference.

  Both programs compute θ · (T / 25165824) of the masked total T of a [128, 49, 4096] array — the sum of the entries
  whose mask bit is set. The reference selects, sums every entry in one reduction from zero, divides, then scales.
  The kernel walks the array in sixteen blocks of eight rows, adds each block's masked total (three nested lane sums)
  into a one-entry scratch that it resets at the first block, copies the scratch out after the last block, and the
  host then scales before dividing. Over the extended reals addition is commutative and associative, so the sixteen
  block totals add up to T whatever the entries are; division by the nonzero real 25165824 is multiplication by its
  reciprocal, so scaling before or after it is one value. Neither step asks the entries to be finite, so the
  precondition is never opened.

  The frames of the two kernel programs are the generated ones; the reference's frame is its generated run with the
  result dropped; the idealization rewrote nothing.
-/
import proofs.«146207_j9500467658939_1_alg».proof.Defs
import proofs.«146207_j9500467658939_1_alg».proof.Proof.Gen.Kernel
import proofs.«146207_j9500467658939_1_alg».proof.Proof.Gen.Kernel.Skeleton
import proofs.«146207_j9500467658939_1_alg».proof.Proof.Gen.Kernel.Launch
import proofs.«146207_j9500467658939_1_alg».proof.Proof.Gen.Kernel.Points
import proofs.«146207_j9500467658939_1_alg».proof.Proof.Gen.Kernel.Frame
import proofs.«146207_j9500467658939_1_alg».proof.Proof.Gen.KernelIdeal
import proofs.«146207_j9500467658939_1_alg».proof.Proof.Gen.KernelIdeal.Skeleton
import proofs.«146207_j9500467658939_1_alg».proof.Proof.Gen.KernelIdeal.Launch
import proofs.«146207_j9500467658939_1_alg».proof.Proof.Gen.KernelIdeal.Points
import proofs.«146207_j9500467658939_1_alg».proof.Proof.Gen.KernelIdeal.Frame
import proofs.«146207_j9500467658939_1_alg».proof.Proof.Gen.ReferenceIdeal
import proofs.«146207_j9500467658939_1_alg».proof.Proof.Gen.ReferenceIdeal.Run
import proofs.«146207_j9500467658939_1_alg».proof.Proof.Gen.ReferenceIdeal.Read
import proofs.«146207_j9500467658939_1_alg».proof.Proof.Gen.Pre_finite_inputs
import proofs.«146207_j9500467658939_1_alg».proof.Proof.RefValue
import proofs.«146207_j9500467658939_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result ends at the loss of its two argument arrays, the reference's at the loss of its own, and the
    arguments agree. -/
theorem algebraic : Cert.algebraic_KernelIdeal_ReferenceIdeal := by
  intro m ρ m' ρ' _ hagree
  refine ⟨fun c => Cert.KernelIdeal.Sum.lossOf (Cert.KernelIdeal.Sum.final m c),
    Cert.KernelIdeal.Sum.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2]
  exact (Cert.KernelIdeal.Sum.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
